-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S256x128 : Shape := ⟨2, ![256, 128]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S400x128, .f32⟩
  | .local _ .vmem, ⟨3, _⟩ => ⟨S400x128, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S10000x128, .f32⟩
  | .hbm, ⟨5, _⟩ => ⟨S10000x256, .f32⟩
  | .hbm, ⟨6, _⟩ => ⟨S256x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.BitsRegion.lean ====
/-
  The kernel's one region, its data: what the TensorCore's arrays hold when the region is entered, what each of the
  seven windows' staging buffers holds around the body at each of the 25 grid points, and the shares at which the
  region holds its arrays.

  Before the region the program transposes W, slices the transpose into its first and last 128 rows, and reshapes the
  bias to a row; the region then reads, at point t, rows 400 t … 400 t + 399 of adj (window 0) and of x (window 1), all
  of x again (window 2), the two slices (windows 3 and 4) and the bias row (window 5), and writes rows
  400 t … 400 t + 399 of the result (window 6). Windows 1 and 2 read ONE array, x: the region holds it as two half
  shares, one per window, which is enough because neither window is ever written back.
-/
import proofs.«152158_g21294447853583_cont_8to1_526_2_alg».proof.Proof.Gen.Kernel.Launch
import proofs.«152158_g21294447853583_cont_8to1_526_2_alg».proof.Proof.Gen.Kernel.Skeleton
import proofs.«152158_g21294447853583_cont_8to1_526_2_alg».proof.Proof.Gen.Kernel.Points
import Idealize.ShloMosaic.Lib.Pipeline.FrameBody
import Idealize.ShloMosaic.Lib.Pipeline.Frame

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (m : (ℓ : Loc nD τ sig) → Buf (Elt F) ℓ)

/-- Core `c`'s buffers when the region is entered: the launch memory after the four host operations. -/
abbrev atEntry (c : Dev nD) (b : Ref sig .tc) : Buf (Elt F) ((c : Thread nD τ).loc b) :=
  StableHlo.after hostOps0 (fun b => m (c, b)) b

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The body reads and writes every staging buffer whole. -/
abbrev allAdj : Rect S400x10000 := Rect.unit (s := S400x10000) ![0, 0] S400x10000.size inb_S400x10000_S400x10000_0_0
abbrev allFeat : Rect S10000x128 := Rect.unit (s := S10000x128) ![0, 0] S10000x128.size inb_S10000x128_S10000x128_0_0
abbrev allRows : Rect S400x128 := Rect.unit (s := S400x128) ![0, 0] S400x128.size inb_S400x128_S400x128_0_0
abbrev allW : Rect S128x128 := Rect.unit (s := S128x128) ![0, 0] S128x128.size inb_S128x128_S128x128_0_0
abbrev allBias : Rect S1x128 := Rect.unit (s := S1x128) ![0, 0] S1x128.size inb_S1x128_S1x128_0_0

/-- What the body leaves in the output's staging buffer, from what the six input buffers read: its one store, of the
    body's arithmetic on the six loads. -/
def tile (a : Vec F S400x10000 .f32) (xr : Vec F S400x128 .f32) (xa : Vec F S10000x128 .f32)
    (w1 : Vec F S128x128 .f32) (w2 : Vec F S128x128 .f32) (bias : Vec F S1x128 .f32) : Vec F S400x128 .f32 :=
  View.canon [⟨allRows, k0_pay1 (View.ld a allAdj) (View.ld xa allFeat) (View.ld xr allRows) (View.ld w1 allW) (View.ld w2 allW) (View.ld bias allBias)⟩]

/-- The region's proof data on core `c`: the arrays as the region finds them; after the body at point `t` each input's
    buffer still at its block and the output's at `tile` of the six blocks; between points only the core's other scoped
    buffers, untouched (the body draws nothing from the generator); nothing owed; x held as two half shares, every other array whole. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => tile (blockAt m c 0 t) (blockAt m c 1 t) (blockAt m c 2 t) (blockAt m c 3 t) (blockAt m c 4 t) (blockAt m c 5 t)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem data_A (c : Dev nD) (w : Fin cfg0.W) : (data m 0 c).A w = atEntry m c (Pipeline.arrRef spec0 w) := by
  dsimp only [data]

theorem after_0 (c : Dev nD) (t : Fin cfg0.N) : (data m 0 c).after 0 t = blockAt m c 0 t := by dsimp only [data]
theorem after_1 (c : Dev nD) (t : Fin cfg0.N) : (data m 0 c).after 1 t = blockAt m c 1 t := by dsimp only [data]
theorem after_2 (c : Dev nD) (t : Fin cfg0.N) : (data m 0 c).after 2 t = blockAt m c 2 t := by dsimp only [data]
theorem after_3 (c : Dev nD) (t : Fin cfg0.N) : (data m 0 c).after 3 t = blockAt m c 3 t := by dsimp only [data]
theorem after_4 (c : Dev nD) (t : Fin cfg0.N) : (data m 0 c).after 4 t = blockAt m c 4 t := by dsimp only [data]
theorem after_5 (c : Dev nD) (t : Fin cfg0.N) : (data m 0 c).after 5 t = blockAt m c 5 t := by dsimp only [data]
theorem after_6 (c : Dev nD) (t : Fin cfg0.N) : (data m 0 c).after 6 t
    = tile (blockAt m c 0 t) (blockAt m c 1 t) (blockAt m c 2 t) (blockAt m c 3 t) (blockAt m c 4 t) (blockAt m c 5 t) := by
  dsimp only [data]

end Cert.Kernel.Region

end
-- ==== Proof.BitsBody.lean ====
/-
  The kernel body at one grid point. Handed the six input buffers at what they read and the output buffer at anything,
  it loads all seven whole, stores once into the output buffer, and returns: the inputs are as they were and the output
  buffer reads the stored value (`tile`). At every point each input buffer holds its window's block of the array as the
  region found it — just fetched, or, for the four windows fetched only at the first point, left in place by every
  earlier point — so the body's triple is the region's obligation at that point.
-/
import proofs.«152158_g21294447853583_cont_8to1_526_2_alg».proof.Proof.BitsRegion
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The one store is of the whole buffer, so it covers it. -/
theorem store_covers (p : Vec F S400x128 .f32) (y : S400x128.Idx) :
    ∃ pc ∈ ([⟨allRows, p⟩] : List (View.Piece (Elt F) S400x128 .f32)), y ∈ pc.1.set :=
  View.cover_of_tiled [⟨allRows, p⟩] S400x128.size (by rfl) y

set_option maxHeartbeats 1000000 in
/-- The body on whole buffers: inputs kept, the output buffer left reading `tile` of what the inputs read; stated with
    the continuation `K` that receives the buffers back, so that whatever else the caller holds stays with it. -/
theorem body_runs (c : Dev nD) (E : Set ℕ) (i : grid0.Coords)
    (a1 : Memref sig .tc .vmem S400x10000 .f32) (h1 : a1.IsWhole) (a2 : Memref sig .tc .vmem S400x128 .f32) (h2 : a2.IsWhole)
    (a3 : Memref sig .tc .vmem S10000x128 .f32) (h3 : a3.IsWhole) (a4 : Memref sig .tc .vmem S128x128 .f32) (h4 : a4.IsWhole)
    (a5 : Memref sig .tc .vmem S128x128 .f32) (h5 : a5.IsWhole) (a6 : Memref sig .tc .vmem S1x128 .f32) (h6 : a6.IsWhole)
    (a7 : Memref sig .tc .vmem S400x128 .f32) (h7 : a7.IsWhole)
    (adjB : Vec F S400x10000 .f32) (xr : Vec F S400x128 .f32) (xa : Vec F S10000x128 .f32)
    (w1 : Vec F S128x128 .f32) (w2 : Vec F S128x128 .f32) (bias : Vec F S1x128 .f32) (K : PUnit → sProp 𝕄) :
    iprop(owns (c : Thread nD τ) a1 fullShare adjB ∗ owns (c : Thread nD τ) a2 fullShare xr ∗ owns (c : Thread nD τ) a3 fullShare xa
        ∗ owns (c : Thread nD τ) a4 fullShare w1 ∗ owns (c : Thread nD τ) a5 fullShare w2 ∗ owns (c : Thread nD τ) a6 fullShare bias
        ∗ (∃ d, owns (c : Thread nD τ) a7 fullShare d)
        ∗ (iprop(owns (c : Thread nD τ) a1 fullShare adjB ∗ owns (c : Thread nD τ) a2 fullShare xr ∗ owns (c : Thread nD τ) a3 fullShare xa
            ∗ owns (c : Thread nD τ) a4 fullShare w1 ∗ owns (c : Thread nD τ) a5 fullShare w2 ∗ owns (c : Thread nD τ) a6 fullShare bias
            ∗ owns (c : Thread nD τ) a7 fullShare (tile adjB xr xa w1 w2 bias)) -∗ K ⟨⟩))
      ⊢ wp frame (wpE (defs₀ (F := F)) Variants.none c none) E (cc0__sage_block i a1 h1 a2 h2 a3 h3 a4 h4 a5 h5 a6 h6 a7 h7) K := by
  sl_unfold [cc0__sage_block]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## What each input buffer holds when the body runs -/

/-- An input window's buffer holds the window's block at every point: where the window is fetched, the fetch put it
    there; where it is not, the block index has not moved since the last fetch and every point in between left the
    buffer as it found it. No window is clipped and none is ever idle. -/
theorem found_0 (c : Dev nD) (t : Fin cfg0.N) (d) : (data m 0 c).before 0 t d = blockAt m c 0 t :=
  ((data m 0 c).before_in_eq_fetched 0 rfl (fun _ => rfl) (fun _ _ _ => rfl)
    (fun t => by rw [after_0]; unfold Dat.blockOf blockAt; rw [data_A]; try rfl) t d).trans
    (by unfold Dat.fetched Dat.blockOf blockAt; rw [data_A]; try rfl)
theorem found_1 (c : Dev nD) (t : Fin cfg0.N) (d) : (data m 0 c).before 1 t d = blockAt m c 1 t :=
  ((data m 0 c).before_in_eq_fetched 1 rfl (fun _ => rfl) (fun _ _ _ => rfl)
    (fun t => by rw [after_1]; unfold Dat.blockOf blockAt; rw [data_A]; try rfl) t d).trans
    (by unfold Dat.fetched Dat.blockOf blockAt; rw [data_A]; try rfl)
theorem found_2 (c : Dev nD) (t : Fin cfg0.N) (d) : (data m 0 c).before 2 t d = blockAt m c 2 t :=
  ((data m 0 c).before_in_eq_fetched 2 rfl (fun _ => rfl) (fun _ _ _ => rfl)
    (fun t => by rw [after_2]; unfold Dat.blockOf blockAt; rw [data_A]; try rfl) t d).trans
    (by unfold Dat.fetched Dat.blockOf blockAt; rw [data_A]; try rfl)
theorem found_3 (c : Dev nD) (t : Fin cfg0.N) (d) : (data m 0 c).before 3 t d = blockAt m c 3 t :=
  ((data m 0 c).before_in_eq_fetched 3 rfl (fun _ => rfl) (fun _ _ _ => rfl)
    (fun t => by rw [after_3]; unfold Dat.blockOf blockAt; rw [data_A]; try rfl) t d).trans
    (by unfold Dat.fetched Dat.blockOf blockAt; rw [data_A]; try rfl)
theorem found_4 (c : Dev nD) (t : Fin cfg0.N) (d) : (data m 0 c).before 4 t d = blockAt m c 4 t :=
  ((data m 0 c).before_in_eq_fetched 4 rfl (fun _ => rfl) (fun _ _ _ => rfl)
    (fun t => by rw [after_4]; unfold Dat.blockOf blockAt; rw [data_A]; try rfl) t d).trans
    (by unfold Dat.fetched Dat.blockOf blockAt; rw [data_A]; try rfl)
theorem found_5 (c : Dev nD) (t : Fin cfg0.N) (d) : (data m 0 c).before 5 t d = blockAt m c 5 t :=
  ((data m 0 c).before_in_eq_fetched 5 rfl (fun _ => rfl) (fun _ _ _ => rfl)
    (fun t => by rw [after_5]; unfold Dat.blockOf blockAt; rw [data_A]; try rfl) t d).trans
    (by unfold Dat.fetched Dat.blockOf blockAt; rw [data_A]; try rfl)

/-! ## The region's obligation at a point -/

/-- What the region hands the body at point `t`: the invariant, that the core owes nothing, and the seven current
    staging buffers at what they hold there. -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d)))

/-- What it takes back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t))

/-- The body at point `t` turns the one into the other: the invariant and the core's debts pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found_0, found_1, found_2, found_3, found_4, found_5]
  rw [show (data m 0 c).Φ t.succ = (data m 0 c).Φ t.castSucc from rfl,
    show (data m 0 c).owesAt () t.succ = (data m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's obligation, at every point. -/
theorem obligation (c : Dev nD) : BodyObligation (data (F := F) m 0 c) (defs₀ (F := F)) Variants.none () Set.univ := fun t => by
  rw [bigSep_W0, bigSep_W0]
  exact body_at m c t

end Cert.Kernel.Region

end
-- ==== Proof.BitsEntry.lean ====
/-
  The four host operations before the region write into buffers of their own (W transposed, its two halves, the bias as
  a row): the four argument arrays are, when the region is entered, what the launch memory holds.
-/
import proofs.«152158_g21294447853583_cont_8to1_526_2_alg».proof.Proof.BitsRegion
import Idealize.ShloMosaic.Lib.StableHlo.Run

noncomputable section

namespace Cert.Kernel.Region

open Cert.Kernel Cert.Kernel.Gen
open Idealize.ShloMosaic Idealize.ShloMosaic.TcCoe Idealize.ShloMosaic.StableHlo
open Idealize.SL.Sem

variable {F : FTy → Type} [FloatOps F] (m : (ℓ : Loc nD τ sig) → Buf (Elt F) ℓ) (c : Dev nD)

theorem entry_arg0 : atEntry m c main_arg0 = m ((c : Thread nD τ).loc main_arg0) := by
  dsimp only [atEntry, hostOps0]; after_results
theorem entry_arg1 : atEntry m c main_arg1 = m ((c : Thread nD τ).loc main_arg1) := by
  dsimp only [atEntry, hostOps0]; after_results
theorem entry_arg2 : atEntry m c main_arg2 = m ((c : Thread nD τ).loc main_arg2) := by
  dsimp only [atEntry, hostOps0]; after_results
theorem entry_arg3 : atEntry m c main_arg3 = m ((c : Thread nD τ).loc main_arg3) := by
  dsimp only [atEntry, hostOps0]; after_results

end Cert.Kernel.Region

end
-- ==== Proof.BitsLaunch.lean ====
/-
  The launch of the region and the frame. @main is four host operations and then the region; the region is entered
  with the six distinct buffers behind its seven windows' arrays each held whole. Five of them go to their one window
  whole; x's buffer is read by two windows, and its whole share is cut into its two halves, one per window — sound
  because both windows only read. After the last grid point every window's array is what the proof data computes (an
  input's array its entry contents, the output's the entry contents overwritten by the 25 write-backs) and every
  buffer that bypasses the region is as the region found it; read at the four arguments, that is the frame.
-/
import proofs.«152158_g21294447853583_cont_8to1_526_2_alg».proof.Proof.BitsBody
import proofs.«152158_g21294447853583_cont_8to1_526_2_alg».proof.Proof.BitsEntry
import Idealize.ShloMosaic.Lib.Pipeline.Frame

set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- @main is the four host operations and then the region, which is therefore entered at `atEntry`. -/
theorem to_region : Pipeline.HMain (Ix := Unit) (Name := ℕ) (U := UR sig nD τ) (Lvl := ℕ) cfgs 0 defs₀ Variants.none m (main (F := F)) (atEntry m) :=
  Pipeline.hmain_prefix cfgs 0 defs₀ Variants.none m main hostOps0 hostOps0_sub ⟨rfl, rfl, rfl, rfl⟩ (fun c => main_chain c)

/-! ## The arrays at entry, at the data's shares -/

theorem share_0 (c : Dev nD) : (data m 0 c).share 0 = fullShare := rfl
theorem share_1 (c : Dev nD) : (data m 0 c).share 1 = fullShare.left := rfl
theorem share_2 (c : Dev nD) : (data m 0 c).share 2 = fullShare.right := rfl
theorem share_3 (c : Dev nD) : (data m 0 c).share 3 = fullShare := rfl
theorem share_4 (c : Dev nD) : (data m 0 c).share 4 = fullShare := rfl
theorem share_5 (c : Dev nD) : (data m 0 c).share 5 = fullShare := rfl
theorem share_6 (c : Dev nD) : (data m 0 c).share 6 = fullShare := rfl

/-- The region's arrays, each a whole buffer at its share. -/
theorem arrays_whole (c : Dev nD) (G : (w : Fin cfg0.W) → Buf (Elt F) ((cfg0.win w).arr.view.loc (c : Thread nD τ))) :
    ((data m 0 c).arrays G : sProp 𝕄)
      = bigSep Finset.univ fun w => (((c : Thread nD τ).loc (Pipeline.arrRef spec0 w)) ↦{(data m 0 c).share w} G w : sProp 𝕄) := by
  unfold Dat.arrays
  exact bigSep_congr fun w _ => by rw [(arr_whole0 w).set_eq_univ]

/-- The buffers behind the seven windows' arrays are six: adj's, x's (once, though two windows read it), the two halves
    of W transposed, the bias row, and the result's. -/
theorem behind_arrays (c : Dev nD) (V : (b : Ref sig .tc) → Buf (Elt F) ((c : Thread nD τ).loc b)) :
    (Pipeline.arrBufs spec0 c V : sProp 𝕄)
      = iprop((((c : Thread nD τ).loc main_arg1) ↦{fullShare} V main_arg1) ∗ (((c : Thread nD τ).loc main_arg0) ↦{fullShare} V main_arg0)
          ∗ (((c : Thread nD τ).loc main_call0_v1) ↦{fullShare} V main_call0_v1) ∗ (((c : Thread nD τ).loc main_call0_v2) ↦{fullShare} V main_call0_v2)
          ∗ (((c : Thread nD τ).loc main_call0_v3) ↦{fullShare} V main_call0_v3) ∗ (((c : Thread nD τ).loc main_v0) ↦{fullShare} V main_v0)) := by
  unfold Pipeline.arrBufs
  exact bigSep_eq_bigSepL_of_eq [main_arg1, main_arg0, main_call0_v1, main_call0_v2, main_call0_v3, main_v0] (by decide) (by decide) _

/-- The six buffers behind the arrays, each whole at the entry contents, make the region's seven arrays at entry: x's
    buffer as its two half shares. -/
theorem split_x (c : Dev nD) :
    (Pipeline.arrBufs spec0 c (atEntry m c) : sProp 𝕄) ⊢ (data m 0 c).arrays ((data m 0 c).arrAt · 0) := by
  rw [arrays_whole, bigSep_W0, share_0, share_1, share_2, share_3, share_4, share_5, share_6, behind_arrays]
  iintro ⟨Hadj, Hx, Hw1, Hw2, Hb, Hout⟩
  ihave ⟨Hxl, Hxr⟩ := (pointsTo_share (PosShare.mem_left_op_right fullShare)).1 $$ Hx
  isplitl [Hadj]; · iexact Hadj
  isplitl [Hxl]; · iexact Hxl
  isplitl [Hxr]; · iexact Hxr
  isplitl [Hw1]; · iexact Hw1
  isplitl [Hw2]; · iexact Hw2
  isplitl [Hb]; · iexact Hb
  iexact Hout

/-! ## The run -/

set_option backward.isDefEq.respectTransparency.types false in
/-- From any memory with zero counters every weakly fair execution of @main terminates, every array of the region at
    what the proof data computes and every bypassing buffer as the region found it. -/
theorem run : θ_run defs (onTc (τ := τ) (main (F := F))) (s₀ m ρ) (Pipeline.FramePost cfgs (data m) 0 (atEntry m)) :=
  Pipeline.θ_run_region_noSem_shared cfgs (data m) () cellOf_inj (0 : Fin 1) winFacts₀0 emb₁ defs₀ Variants.none m ρ main
    (hbody := fun c => (obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := to_region m) (hsplit := split_x m)
    (X := fun _ => iprop(emp)) (Y := fun _ => iprop(emp))
    (Z := fun c => Pipeline.unscopedRest (Ix := Unit) (Name := ℕ) (U := UR sig nD τ) (Lvl := ℕ) spec0 c (atEntry m c))
    (hX := fun c => by
      iintro H
      isplitr; · iempintro
      iexact H)
    (hin := fun c => by
      dsimp only [data]
      iintro ⟨-, H⟩
      iexact H)
    (hout := fun c => by
      dsimp only [data]
      iintro H
      isplitr; · iempintro
      iexact H)
    (QY := fun c s => ∀ b ∈ Pipeline.restRefs sig spec0, s.mem ((c : Thread nD τ).loc b) = atEntry m c b)
    (hY := fun c s' => by
      iintro ⟨-, HU, HSI⟩
      unfold Pipeline.unscopedRest
      imodintro
      iapply (pointsTo_read_all (Pipeline.restRefs sig spec0) (fun b => (c : Thread nD τ).loc b) (atEntry m c) s')
      isplitl [HU] <;> iassumption)
    (hQ := fun s h => h)

/-! ## The frame -/

/-- The four argument arrays end as they began: x and adj are input windows' arrays, never written; W and b bypass the
    region; and the host operations before it write none of the four. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 1).trans (((data m 0 c).arrAt_in 1 rfl _).trans ((data_A m c 1).trans (entry_arg0 m c))),
     ((h c).1 0).trans (((data m 0 c).arrAt_in 0 rfl _).trans ((data_A m c 0).trans (entry_arg1 m c))),
     ((h c).2 main_arg2 (Pipeline.mem_restRefs_of main_arg2 rfl (by decide))).trans (entry_arg2 m c),
     ((h c).2 main_arg3 (Pipeline.mem_restRefs_of main_arg3 rfl (by decide))).trans (entry_arg3 m c)⟩) (run m ρ)

end Cert.Kernel.Region

end
-- ==== Proof.IdealRegion.lean ====
/-
  The kernel's one region, its data: what the TensorCore's arrays hold when the region is entered, what each of the
  seven windows' staging buffers holds around the body at each of the 25 grid points, and the shares at which the
  region holds its arrays.

  Before the region the program transposes W, slices the transpose into its first and last 128 rows, and reshapes the
  bias to a row; the region then reads, at point t, rows 400 t … 400 t + 399 of adj (window 0) and of x (window 1), all
  of x again (window 2), the two slices (windows 3 and 4) and the bias row (window 5), and writes rows
  400 t … 400 t + 399 of the result (window 6). Windows 1 and 2 read ONE array, x: the region holds it as two half
  shares, one per window, which is enough because neither window is ever written back.
-/
import proofs.«152158_g21294447853583_cont_8to1_526_2_alg».proof.Proof.Gen.KernelIdeal.Launch
import proofs.«152158_g21294447853583_cont_8to1_526_2_alg».proof.Proof.Gen.KernelIdeal.Skeleton
import proofs.«152158_g21294447853583_cont_8to1_526_2_alg».proof.Proof.Gen.KernelIdeal.Points
import Idealize.ShloMosaic.Lib.Pipeline.FrameBody
import Idealize.ShloMosaic.Lib.Pipeline.Frame

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (m : (ℓ : Loc nD τ sig) → Buf (Elt F) ℓ)

/-- Core `c`'s buffers when the region is entered: the launch memory after the four host operations. -/
abbrev atEntry (c : Dev nD) (b : Ref sig .tc) : Buf (Elt F) ((c : Thread nD τ).loc b) :=
  StableHlo.after hostOps0 (fun b => m (c, b)) b

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The body reads and writes every staging buffer whole. -/
abbrev allAdj : Rect S400x10000 := Rect.unit (s := S400x10000) ![0, 0] S400x10000.size inb_S400x10000_S400x10000_0_0
abbrev allFeat : Rect S10000x128 := Rect.unit (s := S10000x128) ![0, 0] S10000x128.size inb_S10000x128_S10000x128_0_0
abbrev allRows : Rect S400x128 := Rect.unit (s := S400x128) ![0, 0] S400x128.size inb_S400x128_S400x128_0_0
abbrev allW : Rect S128x128 := Rect.unit (s := S128x128) ![0, 0] S128x128.size inb_S128x128_S128x128_0_0
abbrev allBias : Rect S1x128 := Rect.unit (s := S1x128) ![0, 0] S1x128.size inb_S1x128_S1x128_0_0

/-- What the body leaves in the output's staging buffer, from what the six input buffers read: its one store, of the
    body's arithmetic on the six loads. -/
def tile (a : Vec F S400x10000 .f32) (xr : Vec F S400x128 .f32) (xa : Vec F S10000x128 .f32)
    (w1 : Vec F S128x128 .f32) (w2 : Vec F S128x128 .f32) (bias : Vec F S1x128 .f32) : Vec F S400x128 .f32 :=
  View.canon [⟨allRows, k0_pay1 (View.ld a allAdj) (View.ld xa allFeat) (View.ld xr allRows) (View.ld w1 allW) (View.ld w2 allW) (View.ld bias allBias)⟩]

/-- The region's proof data on core `c`: the arrays as the region finds them; after the body at point `t` each input's
    buffer still at its block and the output's at `tile` of the six blocks; between points only the core's other scoped
    buffers, untouched (the body draws nothing from the generator); nothing owed; x held as two half shares, every other array whole. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => tile (blockAt m c 0 t) (blockAt m c 1 t) (blockAt m c 2 t) (blockAt m c 3 t) (blockAt m c 4 t) (blockAt m c 5 t)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem data_A (c : Dev nD) (w : Fin cfg0.W) : (data m 0 c).A w = atEntry m c (Pipeline.arrRef spec0 w) := by
  dsimp only [data]

theorem after_0 (c : Dev nD) (t : Fin cfg0.N) : (data m 0 c).after 0 t = blockAt m c 0 t := by dsimp only [data]
theorem after_1 (c : Dev nD) (t : Fin cfg0.N) : (data m 0 c).after 1 t = blockAt m c 1 t := by dsimp only [data]
theorem after_2 (c : Dev nD) (t : Fin cfg0.N) : (data m 0 c).after 2 t = blockAt m c 2 t := by dsimp only [data]
theorem after_3 (c : Dev nD) (t : Fin cfg0.N) : (data m 0 c).after 3 t = blockAt m c 3 t := by dsimp only [data]
theorem after_4 (c : Dev nD) (t : Fin cfg0.N) : (data m 0 c).after 4 t = blockAt m c 4 t := by dsimp only [data]
theorem after_5 (c : Dev nD) (t : Fin cfg0.N) : (data m 0 c).after 5 t = blockAt m c 5 t := by dsimp only [data]
theorem after_6 (c : Dev nD) (t : Fin cfg0.N) : (data m 0 c).after 6 t
    = tile (blockAt m c 0 t) (blockAt m c 1 t) (blockAt m c 2 t) (blockAt m c 3 t) (blockAt m c 4 t) (blockAt m c 5 t) := by
  dsimp only [data]

end Cert.KernelIdeal.Region

end
-- ==== Proof.IdealBody.lean ====
/-
  The kernel body at one grid point. Handed the six input buffers at what they read and the output buffer at anything,
  it loads all seven whole, stores once into the output buffer, and returns: the inputs are as they were and the output
  buffer reads the stored value (`tile`). At every point each input buffer holds its window's block of the array as the
  region found it — just fetched, or, for the four windows fetched only at the first point, left in place by every
  earlier point — so the body's triple is the region's obligation at that point.
-/
import proofs.«152158_g21294447853583_cont_8to1_526_2_alg».proof.Proof.IdealRegion
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The one store is of the whole buffer, so it covers it. -/
theorem store_covers (p : Vec F S400x128 .f32) (y : S400x128.Idx) :
    ∃ pc ∈ ([⟨allRows, p⟩] : List (View.Piece (Elt F) S400x128 .f32)), y ∈ pc.1.set :=
  View.cover_of_tiled [⟨allRows, p⟩] S400x128.size (by rfl) y

set_option maxHeartbeats 1000000 in
/-- The body on whole buffers: inputs kept, the output buffer left reading `tile` of what the inputs read; stated with
    the continuation `K` that receives the buffers back, so that whatever else the caller holds stays with it. -/
theorem body_runs (c : Dev nD) (E : Set ℕ) (i : grid0.Coords)
    (a1 : Memref sig .tc .vmem S400x10000 .f32) (h1 : a1.IsWhole) (a2 : Memref sig .tc .vmem S400x128 .f32) (h2 : a2.IsWhole)
    (a3 : Memref sig .tc .vmem S10000x128 .f32) (h3 : a3.IsWhole) (a4 : Memref sig .tc .vmem S128x128 .f32) (h4 : a4.IsWhole)
    (a5 : Memref sig .tc .vmem S128x128 .f32) (h5 : a5.IsWhole) (a6 : Memref sig .tc .vmem S1x128 .f32) (h6 : a6.IsWhole)
    (a7 : Memref sig .tc .vmem S400x128 .f32) (h7 : a7.IsWhole)
    (adjB : Vec F S400x10000 .f32) (xr : Vec F S400x128 .f32) (xa : Vec F S10000x128 .f32)
    (w1 : Vec F S128x128 .f32) (w2 : Vec F S128x128 .f32) (bias : Vec F S1x128 .f32) (K : PUnit → sProp 𝕄) :
    iprop(owns (c : Thread nD τ) a1 fullShare adjB ∗ owns (c : Thread nD τ) a2 fullShare xr ∗ owns (c : Thread nD τ) a3 fullShare xa
        ∗ owns (c : Thread nD τ) a4 fullShare w1 ∗ owns (c : Thread nD τ) a5 fullShare w2 ∗ owns (c : Thread nD τ) a6 fullShare bias
        ∗ (∃ d, owns (c : Thread nD τ) a7 fullShare d)
        ∗ (iprop(owns (c : Thread nD τ) a1 fullShare adjB ∗ owns (c : Thread nD τ) a2 fullShare xr ∗ owns (c : Thread nD τ) a3 fullShare xa
            ∗ owns (c : Thread nD τ) a4 fullShare w1 ∗ owns (c : Thread nD τ) a5 fullShare w2 ∗ owns (c : Thread nD τ) a6 fullShare bias
            ∗ owns (c : Thread nD τ) a7 fullShare (tile adjB xr xa w1 w2 bias)) -∗ K ⟨⟩))
      ⊢ wp frame (wpE (defs₀ (F := F)) Variants.none c none) E (cc0__sage_block i a1 h1 a2 h2 a3 h3 a4 h4 a5 h5 a6 h6 a7 h7) K := by
  sl_unfold [cc0__sage_block]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## What each input buffer holds when the body runs -/

/-- An input window's buffer holds the window's block at every point: where the window is fetched, the fetch put it
    there; where it is not, the block index has not moved since the last fetch and every point in between left the
    buffer as it found it. No window is clipped and none is ever idle. -/
theorem found_0 (c : Dev nD) (t : Fin cfg0.N) (d) : (data m 0 c).before 0 t d = blockAt m c 0 t :=
  ((data m 0 c).before_in_eq_fetched 0 rfl (fun _ => rfl) (fun _ _ _ => rfl)
    (fun t => by rw [after_0]; unfold Dat.blockOf blockAt; rw [data_A]; try rfl) t d).trans
    (by unfold Dat.fetched Dat.blockOf blockAt; rw [data_A]; try rfl)
theorem found_1 (c : Dev nD) (t : Fin cfg0.N) (d) : (data m 0 c).before 1 t d = blockAt m c 1 t :=
  ((data m 0 c).before_in_eq_fetched 1 rfl (fun _ => rfl) (fun _ _ _ => rfl)
    (fun t => by rw [after_1]; unfold Dat.blockOf blockAt; rw [data_A]; try rfl) t d).trans
    (by unfold Dat.fetched Dat.blockOf blockAt; rw [data_A]; try rfl)
theorem found_2 (c : Dev nD) (t : Fin cfg0.N) (d) : (data m 0 c).before 2 t d = blockAt m c 2 t :=
  ((data m 0 c).before_in_eq_fetched 2 rfl (fun _ => rfl) (fun _ _ _ => rfl)
    (fun t => by rw [after_2]; unfold Dat.blockOf blockAt; rw [data_A]; try rfl) t d).trans
    (by unfold Dat.fetched Dat.blockOf blockAt; rw [data_A]; try rfl)
theorem found_3 (c : Dev nD) (t : Fin cfg0.N) (d) : (data m 0 c).before 3 t d = blockAt m c 3 t :=
  ((data m 0 c).before_in_eq_fetched 3 rfl (fun _ => rfl) (fun _ _ _ => rfl)
    (fun t => by rw [after_3]; unfold Dat.blockOf blockAt; rw [data_A]; try rfl) t d).trans
    (by unfold Dat.fetched Dat.blockOf blockAt; rw [data_A]; try rfl)
theorem found_4 (c : Dev nD) (t : Fin cfg0.N) (d) : (data m 0 c).before 4 t d = blockAt m c 4 t :=
  ((data m 0 c).before_in_eq_fetched 4 rfl (fun _ => rfl) (fun _ _ _ => rfl)
    (fun t => by rw [after_4]; unfold Dat.blockOf blockAt; rw [data_A]; try rfl) t d).trans
    (by unfold Dat.fetched Dat.blockOf blockAt; rw [data_A]; try rfl)
theorem found_5 (c : Dev nD) (t : Fin cfg0.N) (d) : (data m 0 c).before 5 t d = blockAt m c 5 t :=
  ((data m 0 c).before_in_eq_fetched 5 rfl (fun _ => rfl) (fun _ _ _ => rfl)
    (fun t => by rw [after_5]; unfold Dat.blockOf blockAt; rw [data_A]; try rfl) t d).trans
    (by unfold Dat.fetched Dat.blockOf blockAt; rw [data_A]; try rfl)

/-! ## The region's obligation at a point -/

/-- What the region hands the body at point `t`: the invariant, that the core owes nothing, and the seven current
    staging buffers at what they hold there. -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d)))

/-- What it takes back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t))

/-- The body at point `t` turns the one into the other: the invariant and the core's debts pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found_0, found_1, found_2, found_3, found_4, found_5]
  rw [show (data m 0 c).Φ t.succ = (data m 0 c).Φ t.castSucc from rfl,
    show (data m 0 c).owesAt () t.succ = (data m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's obligation, at every point. -/
theorem obligation (c : Dev nD) : BodyObligation (data (F := F) m 0 c) (defs₀ (F := F)) Variants.none () Set.univ := fun t => by
  rw [bigSep_W0, bigSep_W0]
  exact body_at m c t

end Cert.KernelIdeal.Region

end
-- ==== Proof.IdealEntry.lean ====
/-
  The four host operations before the region write into buffers of their own (W transposed, its two halves, the bias as
  a row): the four argument arrays are, when the region is entered, what the launch memory holds.
-/
import proofs.«152158_g21294447853583_cont_8to1_526_2_alg».proof.Proof.IdealRegion
import Idealize.ShloMosaic.Lib.StableHlo.Run

noncomputable section

namespace Cert.KernelIdeal.Region

open Cert.KernelIdeal Cert.KernelIdeal.Gen
open Idealize.ShloMosaic Idealize.ShloMosaic.TcCoe Idealize.ShloMosaic.StableHlo
open Idealize.SL.Sem

variable {F : FTy → Type} [FloatOps F] (m : (ℓ : Loc nD τ sig) → Buf (Elt F) ℓ) (c : Dev nD)

theorem entry_arg0 : atEntry m c main_arg0 = m ((c : Thread nD τ).loc main_arg0) := by
  dsimp only [atEntry, hostOps0]; after_results
theorem entry_arg1 : atEntry m c main_arg1 = m ((c : Thread nD τ).loc main_arg1) := by
  dsimp only [atEntry, hostOps0]; after_results
theorem entry_arg2 : atEntry m c main_arg2 = m ((c : Thread nD τ).loc main_arg2) := by
  dsimp only [atEntry, hostOps0]; after_results
theorem entry_arg3 : atEntry m c main_arg3 = m ((c : Thread nD τ).loc main_arg3) := by
  dsimp only [atEntry, hostOps0]; after_results

end Cert.KernelIdeal.Region

end
-- ==== Proof.IdealLaunch.lean ====
/-
  The launch of the region and the frame. @main is four host operations and then the region; the region is entered
  with the six distinct buffers behind its seven windows' arrays each held whole. Five of them go to their one window
  whole; x's buffer is read by two windows, and its whole share is cut into its two halves, one per window — sound
  because both windows only read. After the last grid point every window's array is what the proof data computes (an
  input's array its entry contents, the output's the entry contents overwritten by the 25 write-backs) and every
  buffer that bypasses the region is as the region found it; read at the four arguments, that is the frame.
-/
import proofs.«152158_g21294447853583_cont_8to1_526_2_alg».proof.Proof.IdealBody
import proofs.«152158_g21294447853583_cont_8to1_526_2_alg».proof.Proof.IdealEntry
import Idealize.ShloMosaic.Lib.Pipeline.Frame

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- @main is the four host operations and then the region, which is therefore entered at `atEntry`. -/
theorem to_region : Pipeline.HMain (Ix := Unit) (Name := ℕ) (U := UR sig nD τ) (Lvl := ℕ) cfgs 0 defs₀ Variants.none m (main (F := F)) (atEntry m) :=
  Pipeline.hmain_prefix cfgs 0 defs₀ Variants.none m main hostOps0 hostOps0_sub ⟨rfl, rfl, rfl, rfl⟩ (fun c => main_chain c)

/-! ## The arrays at entry, at the data's shares -/

theorem share_0 (c : Dev nD) : (data m 0 c).share 0 = fullShare := rfl
theorem share_1 (c : Dev nD) : (data m 0 c).share 1 = fullShare.left := rfl
theorem share_2 (c : Dev nD) : (data m 0 c).share 2 = fullShare.right := rfl
theorem share_3 (c : Dev nD) : (data m 0 c).share 3 = fullShare := rfl
theorem share_4 (c : Dev nD) : (data m 0 c).share 4 = fullShare := rfl
theorem share_5 (c : Dev nD) : (data m 0 c).share 5 = fullShare := rfl
theorem share_6 (c : Dev nD) : (data m 0 c).share 6 = fullShare := rfl

/-- The region's arrays, each a whole buffer at its share. -/
theorem arrays_whole (c : Dev nD) (G : (w : Fin cfg0.W) → Buf (Elt F) ((cfg0.win w).arr.view.loc (c : Thread nD τ))) :
    ((data m 0 c).arrays G : sProp 𝕄)
      = bigSep Finset.univ fun w => (((c : Thread nD τ).loc (Pipeline.arrRef spec0 w)) ↦{(data m 0 c).share w} G w : sProp 𝕄) := by
  unfold Dat.arrays
  exact bigSep_congr fun w _ => by rw [(arr_whole0 w).set_eq_univ]

/-- The buffers behind the seven windows' arrays are six: adj's, x's (once, though two windows read it), the two halves
    of W transposed, the bias row, and the result's. -/
theorem behind_arrays (c : Dev nD) (V : (b : Ref sig .tc) → Buf (Elt F) ((c : Thread nD τ).loc b)) :
    (Pipeline.arrBufs spec0 c V : sProp 𝕄)
      = iprop((((c : Thread nD τ).loc main_arg1) ↦{fullShare} V main_arg1) ∗ (((c : Thread nD τ).loc main_arg0) ↦{fullShare} V main_arg0)
          ∗ (((c : Thread nD τ).loc main_call0_v1) ↦{fullShare} V main_call0_v1) ∗ (((c : Thread nD τ).loc main_call0_v2) ↦{fullShare} V main_call0_v2)
          ∗ (((c : Thread nD τ).loc main_call0_v3) ↦{fullShare} V main_call0_v3) ∗ (((c : Thread nD τ).loc main_v0) ↦{fullShare} V main_v0)) := by
  unfold Pipeline.arrBufs
  exact bigSep_eq_bigSepL_of_eq [main_arg1, main_arg0, main_call0_v1, main_call0_v2, main_call0_v3, main_v0] (by decide) (by decide) _

/-- The six buffers behind the arrays, each whole at the entry contents, make the region's seven arrays at entry: x's
    buffer as its two half shares. -/
theorem split_x (c : Dev nD) :
    (Pipeline.arrBufs spec0 c (atEntry m c) : sProp 𝕄) ⊢ (data m 0 c).arrays ((data m 0 c).arrAt · 0) := by
  rw [arrays_whole, bigSep_W0, share_0, share_1, share_2, share_3, share_4, share_5, share_6, behind_arrays]
  iintro ⟨Hadj, Hx, Hw1, Hw2, Hb, Hout⟩
  ihave ⟨Hxl, Hxr⟩ := (pointsTo_share (PosShare.mem_left_op_right fullShare)).1 $$ Hx
  isplitl [Hadj]; · iexact Hadj
  isplitl [Hxl]; · iexact Hxl
  isplitl [Hxr]; · iexact Hxr
  isplitl [Hw1]; · iexact Hw1
  isplitl [Hw2]; · iexact Hw2
  isplitl [Hb]; · iexact Hb
  iexact Hout

/-! ## The run -/

set_option backward.isDefEq.respectTransparency.types false in
/-- From any memory with zero counters every weakly fair execution of @main terminates, every array of the region at
    what the proof data computes and every bypassing buffer as the region found it. -/
theorem run : θ_run defs (onTc (τ := τ) (main (F := F))) (s₀ m ρ) (Pipeline.FramePost cfgs (data m) 0 (atEntry m)) :=
  Pipeline.θ_run_region_noSem_shared cfgs (data m) () cellOf_inj (0 : Fin 1) winFacts₀0 emb₁ defs₀ Variants.none m ρ main
    (hbody := fun c => (obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := to_region m) (hsplit := split_x m)
    (X := fun _ => iprop(emp)) (Y := fun _ => iprop(emp))
    (Z := fun c => Pipeline.unscopedRest (Ix := Unit) (Name := ℕ) (U := UR sig nD τ) (Lvl := ℕ) spec0 c (atEntry m c))
    (hX := fun c => by
      iintro H
      isplitr; · iempintro
      iexact H)
    (hin := fun c => by
      dsimp only [data]
      iintro ⟨-, H⟩
      iexact H)
    (hout := fun c => by
      dsimp only [data]
      iintro H
      isplitr; · iempintro
      iexact H)
    (QY := fun c s => ∀ b ∈ Pipeline.restRefs sig spec0, s.mem ((c : Thread nD τ).loc b) = atEntry m c b)
    (hY := fun c s' => by
      iintro ⟨-, HU, HSI⟩
      unfold Pipeline.unscopedRest
      imodintro
      iapply (pointsTo_read_all (Pipeline.restRefs sig spec0) (fun b => (c : Thread nD τ).loc b) (atEntry m c) s')
      isplitl [HU] <;> iassumption)
    (hQ := fun s h => h)

/-! ## The frame -/

/-- The four argument arrays end as they began: x and adj are input windows' arrays, never written; W and b bypass the
    region; and the host operations before it write none of the four. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 1).trans (((data m 0 c).arrAt_in 1 rfl _).trans ((data_A m c 1).trans (entry_arg0 m c))),
     ((h c).1 0).trans (((data m 0 c).arrAt_in 0 rfl _).trans ((data_A m c 0).trans (entry_arg1 m c))),
     ((h c).2 main_arg2 (Pipeline.mem_restRefs_of main_arg2 rfl (by decide))).trans (entry_arg2 m c),
     ((h c).2 main_arg3 (Pipeline.mem_restRefs_of main_arg3 rfl (by decide))).trans (entry_arg3 m c)⟩) (run m ρ)

end Cert.KernelIdeal.Region

end
-- ==== Proof.SageSpec.lean ====
/-
  The GraphSAGE layer as one function of its four argument arrays, entry by entry, on the extended reals.

  For a node r and an output feature j,

      layer[r, j] = max( Σ_k x[r, k] · W[j, k]  +  Σ_k (Σ_l adj[r, l] · x[l, k]) · W[j, 128 + k]  +  b[j] , 0 ),

  k over the 128 input features, l over the 10000 nodes. The first sum is the node's own features against the first 128
  columns of W, the second its neighbourhood aggregate (one row of adj times x) against the last 128 columns. Nothing
  here distributes a product over a sum or cancels anything: the only law used is that a sum over 256 = 128 + 128
  columns is the sum over the first 128 plus the sum over the last 128, which holds in every commutative additive
  monoid, the extended reals with their infinities included. So no finiteness of the inputs is needed.
-/
import Idealize.ShloMosaic.PureOps.Ideal
import Idealize.ShloMosaic.Lib.ValueIdx

noncomputable section

open scoped BigOperators

namespace Cert.Sage

open Idealize.ShloMosaic Idealize.ShloMosaic.ValueIdx

/-- Node features, 10000 nodes by 128 features. -/
abbrev Feat : Shape := ⟨2, ![10000, 128]⟩
/-- The dense adjacency, 10000 by 10000. -/
abbrev Adj : Shape := ⟨2, ![10000, 10000]⟩
/-- The linear map's weight, 128 output features by 256 = 128 + 128 input columns. -/
abbrev Wt : Shape := ⟨2, ![128, 256]⟩
/-- The bias, one per output feature. -/
abbrev Bias : Shape := ⟨1, ![128]⟩

/-- The neighbourhood aggregate of node `r` at feature `k`: row `r` of the adjacency against column `k` of the features. -/
def agg (x : Feat.Idx → EReal) (adj : Adj.Idx → EReal) (r : Fin 10000) (k : Fin 128) : EReal :=
  ∑ l : Fin 10000, adj (ix2 r l) * x (ix2 l k)

/-- The node's own features against the first 128 columns of `W`. -/
def selfPart (x : Feat.Idx → EReal) (W : Wt.Idx → EReal) (r : Fin 10000) (j : Fin 128) : EReal :=
  ∑ k : Fin 128, x (ix2 r k) * W (ix2 j (Fin.castAdd 128 k))

/-- The node's aggregate against the last 128 columns of `W`. -/
def aggPart (x : Feat.Idx → EReal) (adj : Adj.Idx → EReal) (W : Wt.Idx → EReal) (r : Fin 10000) (j : Fin 128) : EReal :=
  ∑ k : Fin 128, agg x adj r k * W (ix2 j (Fin.natAdd 128 k))

/-- One entry of the layer: the two parts and the bias added in this order, then clamped below at zero. -/
def entry (x : Feat.Idx → EReal) (adj : Adj.Idx → EReal) (W : Wt.Idx → EReal) (b : Bias.Idx → EReal)
    (r : Fin 10000) (j : Fin 128) : EReal :=
  max (selfPart x W r j + aggPart x adj W r j + b (ix1 j)) (Ideal.ofBits .f32 0x00000000#32)

/-- The layer's whole output array. -/
def layer (x : Feat.Idx → EReal) (adj : Adj.Idx → EReal) (W : Wt.Idx → EReal) (b : Bias.Idx → EReal) : Feat.Idx → EReal :=
  fun i => entry x adj W b ⟨(i 0).val, (i 0).isLt⟩ ⟨(i 1).val, (i 1).isLt⟩

theorem layer_ix2 (x : Feat.Idx → EReal) (adj : Adj.Idx → EReal) (W : Wt.Idx → EReal) (b : Bias.Idx → EReal)
    (r : Fin 10000) (j : Fin 128) : layer x adj W b (ix2 r j) = entry x adj W b r j := rfl

/-- A sum over the 256 columns is the sum over the first 128 plus the sum over the last 128. -/
theorem sum_split {M : Type} [AddCommMonoid M] (f : Fin 256 → M) :
    ∑ k : Fin 256, f k = (∑ k : Fin 128, f (Fin.castAdd 128 k)) + ∑ k : Fin 128, f (Fin.natAdd 128 k) :=
  Fin.sum_univ_add (a := 128) (b := 128) f

end Cert.Sage

end
-- ==== Proof.IdealBlocks.lean ====
/-
  The windows' blocks, read at coordinates. At grid point t window 0 is rows 400 t … 400 t + 399 of adj, window 1 the
  same rows of x, windows 2 to 5 all of x, of the two halves of W transposed and of the bias row; the output's block is
  the same rows of the result, and the 25 blocks of 400 rows cover its 10000 rows. What the body leaves in the output's
  buffer is, entry by entry, the stored value.
-/
import proofs.«152158_g21294447853583_cont_8to1_526_2_alg».proof.Proof.IdealRegion
import proofs.«152158_g21294447853583_cont_8to1_526_2_alg».proof.Proof.IdealEntry
import Idealize.ShloMosaic.Lib.ValueIdx
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F] (m : (ℓ : Loc nD τ sig) → Buf (Elt F) ℓ) (c : Dev nD)

/-- The loads and the store of the body go through the rectangle at offsets (0, 0): both offsets are zero. -/
theorem zero_offsets : (![0, 0] : Fin 2 → Nat) = fun _ => 0 := funext fun a => by fin_cases a <;> rfl

/-- The printed index maps over the 25 points: the row-blocked windows (adj, x by rows, the result) are at block
    (t, 0), the whole-array windows (x, the two halves of W transposed, the bias row) at block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The output buffer after the body reads, at every entry, the value the body stored. -/
theorem tile_apply (a : Vec F S400x10000 .f32) (xr : Vec F S400x128 .f32) (xa : Vec F S10000x128 .f32)
    (w1 : Vec F S128x128 .f32) (w2 : Vec F S128x128 .f32) (bias : Vec F S1x128 .f32) :
    tile a xr xa w1 w2 bias = k0_pay1 a xa xr w1 w2 bias := by
  unfold tile
  rw [View.canon_unit_zero zero_offsets]
  simp only [View.ld_unit_zero (S := S400x10000) zero_offsets, View.ld_unit_zero (S := S10000x128) zero_offsets,
    View.ld_unit_zero (S := S400x128) zero_offsets, View.ld_unit_zero (S := S128x128) zero_offsets,
    View.ld_unit_zero (S := S1x128) zero_offsets]

/-- Window 0 at point `t`: row `y` of the block is row `400 t + y` of adj. -/
theorem adj_rows (t : Fin cfg0.N) (y : Fin 400) (r : Fin 10000) (hr : r.val = 400 * t.val + y.val) (l : Fin 10000) :
    (blockAt m c 0 t : Vec F S400x10000 .f32) (ix2 y l)
      = (m ((c : Thread nD τ).loc main_arg1) : Vec F S10000x10000 .f32) (ix2 r l) := by
  rw [← entry_arg1 m c]
  show atEntry m c main_arg1 (((cfg0.win 0).blk t).view.emb (ix2 y l)) = atEntry m c main_arg1 (ix2 r l)
  refine congrArg _ ?_
  obtain ⟨⟨e0, e1⟩, -⟩ := block_indices t
  funext a; apply Fin.ext
  match a with
  | ⟨0, _⟩ => show win0_0.index t (0 : Fin 2) * 400 + 1 * y.val = r.val; omega
  | ⟨1, _⟩ => show win0_0.index t (1 : Fin 2) * 10000 + 1 * l.val = l.val; omega

/-- Window 1 at point `t`: row `y` of the block is row `400 t + y` of x. -/
theorem x_rows (t : Fin cfg0.N) (y : Fin 400) (r : Fin 10000) (hr : r.val = 400 * t.val + y.val) (k : Fin 128) :
    (blockAt m c 1 t : Vec F S400x128 .f32) (ix2 y k)
      = (m ((c : Thread nD τ).loc main_arg0) : Vec F S10000x128 .f32) (ix2 r k) := by
  rw [← entry_arg0 m c]
  show atEntry m c main_arg0 (((cfg0.win 1).blk t).view.emb (ix2 y k)) = atEntry m c main_arg0 (ix2 r k)
  refine congrArg _ ?_
  obtain ⟨-, ⟨e0, e1⟩, -⟩ := block_indices t
  funext a; apply Fin.ext
  match a with
  | ⟨0, _⟩ => show win0_1.index t (0 : Fin 2) * 400 + 1 * y.val = r.val; omega
  | ⟨1, _⟩ => show win0_1.index t (1 : Fin 2) * 128 + 1 * k.val = k.val; omega

/-- Window 2 is all of x at every point. -/
theorem x_all (t : Fin cfg0.N) : (blockAt m c 2 t : Vec F S10000x128 .f32) = m ((c : Thread nD τ).loc main_arg0) := by
  rw [← entry_arg0 m c]
  funext i
  show atEntry m c main_arg0 (((cfg0.win 2).blk t).view.emb i) = atEntry m c main_arg0 i
  refine congrArg _ ?_
  obtain ⟨-, -, ⟨e0, e1⟩, -⟩ := block_indices t
  funext a; apply Fin.ext
  match a with
  | ⟨0, _⟩ => show win0_2.index t (0 : Fin 2) * 10000 + 1 * (i 0).val = (i 0).val; omega
  | ⟨1, _⟩ => show win0_2.index t (1 : Fin 2) * 128 + 1 * (i 1).val = (i 1).val; omega

/-- Windows 3, 4 and 5 are all of their arrays at every point. -/
theorem w1_all (t : Fin cfg0.N) : (blockAt m c 3 t : Vec F S128x128 .f32) = atEntry m c main_call0_v1 := by
  funext i
  show atEntry m c main_call0_v1 (((cfg0.win 3).blk t).view.emb i) = atEntry m c main_call0_v1 i
  refine congrArg _ ?_
  obtain ⟨-, -, -, ⟨e0, e1⟩, -⟩ := block_indices t
  funext a; apply Fin.ext
  match a with
  | ⟨0, _⟩ => show win0_3.index t (0 : Fin 2) * 128 + 1 * (i 0).val = (i 0).val; omega
  | ⟨1, _⟩ => show win0_3.index t (1 : Fin 2) * 128 + 1 * (i 1).val = (i 1).val; omega
theorem w2_all (t : Fin cfg0.N) : (blockAt m c 4 t : Vec F S128x128 .f32) = atEntry m c main_call0_v2 := by
  funext i
  show atEntry m c main_call0_v2 (((cfg0.win 4).blk t).view.emb i) = atEntry m c main_call0_v2 i
  refine congrArg _ ?_
  obtain ⟨-, -, -, -, ⟨e0, e1⟩, -⟩ := block_indices t
  funext a; apply Fin.ext
  match a with
  | ⟨0, _⟩ => show win0_4.index t (0 : Fin 2) * 128 + 1 * (i 0).val = (i 0).val; omega
  | ⟨1, _⟩ => show win0_4.index t (1 : Fin 2) * 128 + 1 * (i 1).val = (i 1).val; omega
theorem bias_all (t : Fin cfg0.N) : (blockAt m c 5 t : Vec F S1x128 .f32) = atEntry m c main_call0_v3 := by
  funext i
  show atEntry m c main_call0_v3 (((cfg0.win 5).blk t).view.emb i) = atEntry m c main_call0_v3 i
  refine congrArg _ ?_
  obtain ⟨-, -, -, -, -, ⟨e0, e1⟩, -⟩ := block_indices t
  funext a; apply Fin.ext
  match a with
  | ⟨0, _⟩ => show win0_5.index t (0 : Fin 2) * 1 + 1 * (i 0).val = (i 0).val; omega
  | ⟨1, _⟩ => show win0_5.index t (1 : Fin 2) * 128 + 1 * (i 1).val = (i 1).val; omega

/-- Reading an array `G` of the result's shape through the output's block at point `t`: row `y` is row `400 t + y`. -/
theorem out_rows (G : Vec F S10000x128 .f32) (t : Fin cfg0.N) (y : Fin 400) (r : Fin 10000) (hr : r.val = 400 * t.val + y.val) (j : Fin 128) :
    (((cfg0.win 6).blk t).view.read (Elt F) G : Vec F S400x128 .f32) (ix2 y j) = G (ix2 r j) := by
  show G (((cfg0.win 6).blk t).view.emb (ix2 y j)) = G (ix2 r j)
  refine congrArg _ ?_
  obtain ⟨-, -, -, -, -, -, e0, e1⟩ := block_indices t
  funext a; apply Fin.ext
  match a with
  | ⟨0, _⟩ => show win0_6.index t (0 : Fin 2) * 400 + 1 * y.val = r.val; omega
  | ⟨1, _⟩ => show win0_6.index t (1 : Fin 2) * 128 + 1 * j.val = j.val; omega

/-- An entry of the result is in the output's block at point `t` exactly when each of its coordinates is in the
    block's range on its axis. -/
theorem mem_out_block (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v0).slice (win0_6.rect t)).set ↔ _
  rw [View.set_slice_whole, Rect.mem_set_unit]
  exact Iff.rfl

/-- Every entry of the result lies in the block of some point, and every point writes its block back. -/
theorem out_cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  refine ⟨⟨(i 0).val / 400, by rw [hN]; omega⟩, flush0_6 _, ?_⟩
  rw [mem_out_block]
  obtain ⟨-, -, -, -, -, -, e0, e1⟩ := block_indices (⟨(i 0).val / 400, by rw [hN]; omega⟩ : Fin cfg0.N)
  have e0' : win0_6.index (⟨(i 0).val / 400, by rw [hN]; omega⟩ : Fin cfg0.N) (0 : Fin 2) = (i 0).val / 400 := e0
  intro a
  match a with
  | ⟨0, _⟩ =>
    show win0_6.index (⟨(i 0).val / 400, by rw [hN]; omega⟩ : Fin cfg0.N) (0 : Fin 2) * 400 ≤ (i 0).val
      ∧ (i 0).val < win0_6.index (⟨(i 0).val / 400, by rw [hN]; omega⟩ : Fin cfg0.N) (0 : Fin 2) * 400 + 400
    omega
  | ⟨1, _⟩ =>
    show win0_6.index (⟨(i 0).val / 400, by rw [hN]; omega⟩ : Fin cfg0.N) (1 : Fin 2) * 128 ≤ (i 1).val
      ∧ (i 1).val < win0_6.index (⟨(i 0).val / 400, by rw [hN]; omega⟩ : Fin cfg0.N) (1 : Fin 2) * 128 + 128
    omega

end Cert.KernelIdeal.Region

end
-- ==== Proof.IdealTile.lean ====
/-
  The body's arithmetic read at one entry, on the extended reals, and the three arrays the host operations before the
  region make (the two halves of W transposed, the bias as a row) read at one entry.

  A product into the zero accumulator is, entry by entry, the sum over its one contracted axis of the operands'
  products; the contraction index is carried to its one coordinate, and the operands' indices are read off the
  dimension numbers axis by axis. The stored value is then the maximum with zero of two such sums and the bias, the
  second sum having the first product (adj against x) as its left factor. The host's arrays are a slice of a transpose
  (row k of the slice from row o is row o + k of the transpose, which is column o + k of W) and a reshape of a vector to
  one row.
-/
import proofs.«152158_g21294447853583_cont_8to1_526_2_alg».proof.Proof.IdealRegion
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

open scoped BigOperators

namespace Cert.KernelIdeal.TileValue

open Cert.KernelIdeal Cert.KernelIdeal.Gen Cert.KernelIdeal.Region
open Idealize.ShloMosaic Idealize.ShloMosaic.TcCoe Idealize.ShloMosaic.ValueIdx
open Idealize.SL.Sem

/-! ## The two matmuls read at an entry -/

theorem lhs_adj_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_adj_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_adj_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_adj_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The block's rows of adj against all of x, into the zero accumulator: entry (y, k) is the sum over the 10000 nodes. -/
theorem matmul_adj_apply (a : FVec Ideal S400x10000 .f32) (b : FVec Ideal S10000x128 .f32) (y : Fin 400) (k : Fin 128) :
    matmul dot_S400x10000_S10000x128_S400x128_1_0_0_1_n_n none a b (constant (F := Ideal) S400x128 .f32 0x00000000#32) (ix2 y k)
      = ∑ l : Fin 10000, a (ix2 y l) * b (ix2 l k) := by
  refine (Ideal.matmul_constant_zero_apply dot_S400x10000_S10000x128_S400x128_1_0_0_1_n_n none a b (ix2 y k)).trans ?_
  rw [← Equiv.sum_comp (ValueIdx.contrEquiv1 dot_S400x10000_S10000x128_S400x128_1_0_0_1_n_n 10000 rfl rfl).symm]
  refine Finset.sum_congr rfl fun l _ => ?_
  have hl := ValueIdx.contrEquiv1_symm_val dot_S400x10000_S10000x128_S400x128_1_0_0_1_n_n 10000 rfl rfl l
  have el : dot_S400x10000_S10000x128_S400x128_1_0_0_1_n_n.lhsIdx (ix2 y k) ((ValueIdx.contrEquiv1 dot_S400x10000_S10000x128_S400x128_1_0_0_1_n_n 10000 rfl rfl).symm l) = ix2 y l := funext fun c => Fin.ext (by
    match c with
    | ⟨0, _⟩ => exact lhs_adj_0 _ _
    | ⟨1, _⟩ => exact (lhs_adj_1 _ _).trans hl)
  have er : dot_S400x10000_S10000x128_S400x128_1_0_0_1_n_n.rhsIdx (ix2 y k) ((ValueIdx.contrEquiv1 dot_S400x10000_S10000x128_S400x128_1_0_0_1_n_n 10000 rfl rfl).symm l) = ix2 l k := funext fun c => Fin.ext (by
    match c with
    | ⟨0, _⟩ => exact (rhs_adj_0 _ _).trans hl
    | ⟨1, _⟩ => exact rhs_adj_1 _ _)
  rw [el, er]

theorem lhs_w_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_w_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_w_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_w_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- 400 rows of 128 features against a 128 by 128 matrix, into the zero accumulator: entry (y, j) is the sum over the
    128 features. -/
theorem matmul_w_apply (a : FVec Ideal S400x128 .f32) (b : FVec Ideal S128x128 .f32) (y : Fin 400) (j : Fin 128) :
    matmul dot_S400x128_S128x128_S400x128_1_0_0_1_n_n none a b (constant (F := Ideal) S400x128 .f32 0x00000000#32) (ix2 y j)
      = ∑ k : Fin 128, a (ix2 y k) * b (ix2 k j) := by
  refine (Ideal.matmul_constant_zero_apply dot_S400x128_S128x128_S400x128_1_0_0_1_n_n none a b (ix2 y j)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 y j) ((ValueIdx.contrEquiv1 dot_S400x128_S128x128_S400x128_1_0_0_1_n_n 128 rfl rfl).symm k) = ix2 y k := funext fun c => Fin.ext (by
    match c with
    | ⟨0, _⟩ => exact lhs_w_0 _ _
    | ⟨1, _⟩ => exact (lhs_w_1 _ _).trans hk)
  have er : dot_S400x128_S128x128_S400x128_1_0_0_1_n_n.rhsIdx (ix2 y j) ((ValueIdx.contrEquiv1 dot_S400x128_S128x128_S400x128_1_0_0_1_n_n 128 rfl rfl).symm k) = ix2 k j := funext fun c => Fin.ext (by
    match c with
    | ⟨0, _⟩ => exact (rhs_w_0 _ _).trans hk
    | ⟨1, _⟩ => exact rhs_w_1 _ _)
  rw [el, er]

/-! ## The body's arithmetic at an entry -/

/-- The stored value at row `y` of the block and feature `j`: the block's rows of x against `w1`, plus the block's rows of
    adj against all of x and then against `w2`, plus the bias, clamped below at zero. -/
theorem pay_apply (v0 : Vec Ideal S400x10000 .f32) (v1 : Vec Ideal S10000x128 .f32) (v3 : Vec Ideal S400x128 .f32)
    (v4 : Vec Ideal S128x128 .f32) (v7 : Vec Ideal S128x128 .f32) (v11 : Vec Ideal S1x128 .f32) (y : Fin 400) (j : Fin 128) :
    k0_pay1 (F := Ideal) v0 v1 v3 v4 v7 v11 (ix2 y j)
      = max ((∑ k : Fin 128, v3 (ix2 y k) * v4 (ix2 k j))
              + (∑ k : Fin 128, (∑ l : Fin 10000, v0 (ix2 y l) * v1 (ix2 l k)) * v7 (ix2 k j))
              + v11 (ix2 (0 : Fin 1) j))
            (Ideal.ofBits .f32 0x00000000#32) := by
  unfold k0_pay1
  -- the maximum against the splat of the zero word, then the two sums, entry by entry
  refine (maximumf_apply _ _ (ix2 y j)).trans ?_
  refine congrArg₂ max ?_ rfl
  refine (addf_apply _ _ (ix2 y j)).trans ?_
  refine congrArg₂ (· + ·) ?_ ?_
  · refine (addf_apply _ _ (ix2 y j)).trans ?_
    refine congrArg₂ (· + ·) ?_ ?_
    · -- the block's rows of x against the first slice, which is cast to its own shape
      rw [shapeCast_self v4]
      exact matmul_w_apply v3 v4 y j
    · -- the aggregate against the second slice: the outer product first, the inner one under its sum
      rw [shapeCast_self v7]
      refine (matmul_w_apply _ v7 y j).trans ?_
      refine Finset.sum_congr rfl fun k _ => ?_
      exact congrArg (· * v7 (ix2 k j)) (matmul_adj_apply v0 v1 y k)
  · -- the bias row, cast to its own shape and repeated down the 400 rows
    rw [shapeCast_self v11]
    exact broadcastTo_1b_ab_apply v11 broadcasts_S1x128_S400x128 y j

/-! ## The arrays the host operations make, read at an entry -/

section Entry

variable {F : FTy → Type} [FloatOps F] (m : (ℓ : Loc nD τ sig) → Buf (Elt F) ℓ) (c : Dev nD)

/-- Rows 0 … 127 of W transposed: entry (k, j) is W[j, k]. -/
theorem entry_w1 (k j : Fin 128) :
    (atEntry m c main_call0_v1 : S128x128.Idx → Elt F .f32) (ix2 k j)
      = (m ((c : Thread nD τ).loc main_arg2) : S128x256.Idx → Elt F .f32) (ix2 j (Fin.castAdd 128 k)) := by
  -- the array is the slice from row 0 of the transpose of W
  have e : (atEntry m c main_call0_v1 : S128x128.Idx → Elt F .f32)
      = extractStridedSlice S128x128 ![0, 0] (transpose S256x128 [1, 0] (m ((c : Thread nD τ).loc main_arg2) : S128x256.Idx → Elt F .f32) transposes_S128x256_S256x128_1_0) slices_S256x128_S128x128_0_0 := by
    dsimp only [atEntry, hostOps0]
    after_results
    rfl
  refine (congrFun e (ix2 k j)).trans ?_
  -- row k of the slice is row 0 + k of the transpose, which is column k of W
  refine (slice2_axis0_apply 0 _ slices_S256x128_S128x128_0_0 k j (Fin.castAdd 128 k) (Nat.zero_add k.val).symm).trans ?_
  exact transpose_ix2_apply _ transposes_S128x256_S256x128_1_0 (Fin.castAdd 128 k) j

/-- Rows 128 … 255 of W transposed: entry (k, j) is W[j, 128 + k]. -/
theorem entry_w2 (k j : Fin 128) :
    (atEntry m c main_call0_v2 : S128x128.Idx → Elt F .f32) (ix2 k j)
      = (m ((c : Thread nD τ).loc main_arg2) : S128x256.Idx → Elt F .f32) (ix2 j (Fin.natAdd 128 k)) := by
  -- the array is the slice from row 128 of the transpose of W
  have e : (atEntry m c main_call0_v2 : S128x128.Idx → Elt F .f32)
      = extractStridedSlice S128x128 ![128, 0] (transpose S256x128 [1, 0] (m ((c : Thread nD τ).loc main_arg2) : S128x256.Idx → Elt F .f32) transposes_S128x256_S256x128_1_0) slices_S256x128_S128x128_128_0 := by
    dsimp only [atEntry, hostOps0]
    after_results
    rfl
  refine (congrFun e (ix2 k j)).trans ?_
  -- row k of the slice is row 128 + k of the transpose, which is column 128 + k of W
  refine (slice2_axis0_apply 128 _ slices_S256x128_S128x128_128_0 k j (Fin.natAdd 128 k) rfl).trans ?_
  exact transpose_ix2_apply _ transposes_S128x256_S256x128_1_0 (Fin.natAdd 128 k) j

/-- The bias as a row. -/
theorem entry_bias (j : Fin 128) :
    (atEntry m c main_call0_v3 : S1x128.Idx → Elt F .f32) (ix2 (0 : Fin 1) j)
      = (m ((c : Thread nD τ).loc main_arg3) : S128.Idx → Elt F .f32) (ix1 j) := by
  -- the array is the bias reshaped to one row of 128
  have e : (atEntry m c main_call0_v3 : S1x128.Idx → Elt F .f32)
      = shapeCast S1x128 (m ((c : Thread nD τ).loc main_arg3) : S128.Idx → Elt F .f32) shapeCasts_S128_S1x128 := by
    dsimp only [atEntry, hostOps0]
    after_results
    rfl
  refine (congrFun e (ix2 (0 : Fin 1) j)).trans ?_
  exact shapeCast_a_1a_apply _ shapeCasts_S128_S1x128 (0 : Fin 1) j

end Entry

end Cert.KernelIdeal.TileValue

end
-- ==== Proof.IdealValue.lean ====
/-
  The result array after the kernel's run, on the extended reals, is the layer. At grid point t the body leaves in the
  output buffer, at row y and feature j, the stored value of the six blocks; reading the blocks where they lie in the
  arrays (rows 400 t + y of adj and of x; all of x; W transposed in its two halves; the bias row) that value is
  `Cert.Sage.entry` at node 400 t + y. The 25 blocks cover the 10000 rows, so the whole array is `Cert.Sage.layer`.
-/
import proofs.«152158_g21294447853583_cont_8to1_526_2_alg».proof.Proof.SageSpec
import proofs.«152158_g21294447853583_cont_8to1_526_2_alg».proof.Proof.IdealBlocks
import proofs.«152158_g21294447853583_cont_8to1_526_2_alg».proof.Proof.IdealTile
import Idealize.ShloMosaic.Lib.Pipeline.Value

set_option maxRecDepth 16384

noncomputable section

open scoped BigOperators

namespace Cert.KernelIdeal.Region

open Cert.KernelIdeal Cert.KernelIdeal.Gen Cert.KernelIdeal.TileValue
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The layer of the four argument arrays as the launch memory holds them. -/
abbrev result : Vec Ideal S10000x128 .f32 :=
  Cert.Sage.layer (m ((c : Thread nD τ).loc main_arg0)) (m ((c : Thread nD τ).loc main_arg1))
    (m ((c : Thread nD τ).loc main_arg2)) (m ((c : Thread nD τ).loc main_arg3))

/-- What point `t` leaves in the output buffer at row `y0` and feature `j` is the layer's entry at node `400 t + y0`:
    the stored value's two sums and bias are the entry's, summand by summand, once each block is read where it lies. -/
theorem out_entry (t : Fin cfg0.N) (y0 : Fin 400) (j : Fin 128) (r : Fin 10000) (hr : r.val = 400 * t.val + y0.val) :
    ((data m 0 c).after 6 t : Vec Ideal S400x128 .f32) (ix2 y0 j) = result m c (ix2 r j) := by
  rw [after_6 m c t, tile_apply]
  refine (pay_apply (blockAt m c 0 t) (blockAt m c 2 t) (blockAt m c 1 t) (blockAt m c 3 t) (blockAt m c 4 t) (blockAt m c 5 t) y0 j).trans ?_
  refine Eq.trans ?_ (Cert.Sage.layer_ix2 _ _ _ _ r j).symm
  unfold Cert.Sage.entry Cert.Sage.selfPart Cert.Sage.aggPart Cert.Sage.agg
  refine congrArg₂ max ?_ rfl
  refine congrArg₂ (· + ·) (congrArg₂ (· + ·) ?_ ?_) ?_
  · -- the node's own features against the first half of W
    refine Finset.sum_congr rfl fun k _ => ?_
    exact congrArg₂ (· * ·) (x_rows m c t y0 r hr k) ((congrFun (w1_all m c t) (ix2 k j)).trans (entry_w1 m c k j))
  · -- the node's aggregate against the second half of W
    refine Finset.sum_congr rfl fun k _ => ?_
    refine congrArg₂ (· * ·) ?_ ((congrFun (w2_all m c t) (ix2 k j)).trans (entry_w2 m c k j))
    refine Finset.sum_congr rfl fun l _ => ?_
    exact congrArg₂ (· * ·) (adj_rows m c t y0 r hr l) (congrFun (x_all m c t) (ix2 l k))
  · -- the bias
    exact (congrFun (bias_all m c t) (ix2 (0 : Fin 1) j)).trans (entry_bias m c j)

/-- What point `t` writes back is the layer read through the point's block. -/
theorem out_block (t : Fin cfg0.N) :
    (data m 0 c).flushed 6 t = ((cfg0.win 6).blk t).view.read (Elt Ideal) (result m c) := by
  have ht : t.val < 25 := lt_of_lt_of_eq t.isLt N_0
  refine funext fun y => ?_
  obtain ⟨y0, j, rfl⟩ : ∃ (y0 : Fin 400) (j : Fin 128), y = ix2 y0 j := ⟨y 0, y 1, eq_ix2 y⟩
  have hr : (⟨400 * t.val + y0.val, by have := y0.isLt; omega⟩ : Fin 10000).val = 400 * t.val + y0.val := rfl
  refine Eq.trans ?_ (out_rows (result m c) t y0 _ hr j).symm
  exact out_entry m c t y0 j _ hr

/-- After the last point the result array holds the layer. -/
theorem final_out : (data m 0 c).arrAt 6 cfg0.N = result m c :=
  (data m 0 c).arrAt_eq_of_cover 6 (result m c) (fun t _ => out_block m c t) out_cover

end Cert.KernelIdeal.Region

end
-- ==== Proof.SageRef.lean ====
/-
  The reference computes the layer: its run's result term, read one operation at a time at an index, is
  `Cert.Sage.layer` of the four argument arrays.
-/
import proofs.«152158_g21294447853583_cont_8to1_526_2_alg».proof.Proof.SageSpec
import proofs.«152158_g21294447853583_cont_8to1_526_2_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The concatenation of x and adj·x along the columns, at a column of the first half: the node's own feature. -/
theorem cat_left (x0 : (⟨S10000x128, .f32⟩ : BufTy).Contents (Elt Ideal)) (x1 : (⟨S10000x10000, .f32⟩ : BufTy).Contents (Elt Ideal))
    (r : Fin 10000) (j : Fin 128) (k : Fin 128) :
    val_main_v1 (F := Ideal) x0 x1 (lidx_main_v3 (ix2 r j) (Fin.castAdd 128 k)) = x0 (ix2 r k) := by
  unfold val_main_v1
  exact concatenate_pair_apply_left 1 x0 _ concatenates_S10000x128_S10000x128_S10000x256_d1 _ rfl (ix2 r k) (fun b => by
    match b with
    | ⟨0, _⟩ => rfl
    | ⟨1, _⟩ => rfl)

/-- The same concatenation at a column of the second half, 128 + k: the aggregate's entry at column k. -/
theorem cat_right (x0 : (⟨S10000x128, .f32⟩ : BufTy).Contents (Elt Ideal)) (x1 : (⟨S10000x10000, .f32⟩ : BufTy).Contents (Elt Ideal))
    (r : Fin 10000) (j : Fin 128) (k : Fin 128) :
    val_main_v1 (F := Ideal) x0 x1 (lidx_main_v3 (ix2 r j) (Fin.natAdd 128 k)) = val_main_v0 (F := Ideal) x0 x1 (ix2 r k) := by
  unfold val_main_v1
  exact concatenate_pair_apply_right 1 x0 _ concatenates_S10000x128_S10000x128_S10000x256_d1 _ rfl rfl (ix2 r k)
    (fun b hb => by
      match b with
      | ⟨0, _⟩ => rfl
      | ⟨1, _⟩ => exact absurd rfl hb)
    (Nat.add_comm _ _)

/-- The aggregate adj·x at (r, k) is the sum over the nodes l of adj[r, l] · x[l, k]. -/
theorem agg_apply (x0 : (⟨S10000x128, .f32⟩ : BufTy).Contents (Elt Ideal)) (x1 : (⟨S10000x10000, .f32⟩ : BufTy).Contents (Elt Ideal))
    (r : Fin 10000) (k : Fin 128) :
    val_main_v0 (F := Ideal) x0 x1 (ix2 r k) = Cert.Sage.agg x0 x1 r k := by
  rw [val_main_v0_apply]
  unfold Cert.Sage.agg
  refine Finset.sum_congr rfl fun l _ => ?_
  have el : lidx_main_v0 (ix2 r k) l = ix2 r l := funext fun a => by
    match a with
    | ⟨0, _⟩ => rfl
    | ⟨1, _⟩ => rfl
  have er : ridx_main_v0 (ix2 r k) l = ix2 l k := funext fun a => by
    match a with
    | ⟨0, _⟩ => rfl
    | ⟨1, _⟩ => rfl
  rw [el, er]

/-- W transposed at (c, j) is W[j, c]. -/
theorem wt_apply (x2 : (⟨S128x256, .f32⟩ : BufTy).Contents (Elt Ideal)) (r : Fin 10000) (j : Fin 128) (c : Fin 256) :
    val_main_v2 (F := Ideal) x2 (ridx_main_v3 (ix2 r j) c) = x2 (ix2 j c) := by
  rw [val_main_v2_apply]
  have e : idx_main_v2 (ridx_main_v3 (ix2 r j) c) = ix2 j c := funext fun a => by
    match a with
    | ⟨0, _⟩ => rfl
    | ⟨1, _⟩ => rfl
  rw [e]

/-- The bias broadcast down the rows, at (r, j), is b[j]. -/
theorem bias_apply (x3 : (⟨S128, .f32⟩ : BufTy).Contents (Elt Ideal)) (r : Fin 10000) (j : Fin 128) :
    val_main_v5 (F := Ideal) x3 (ix2 r j) = x3 (ix1 j) := by
  rw [val_main_v5_apply, val_main_v4_apply]
  have e : idx_main_v4 (idx_main_v5 (ix2 r j)) = ix1 j := funext fun a => by
    match a with
    | ⟨0, _⟩ => rfl
  rw [e]

/-- The contraction over the 256 columns of the concatenation against W transposed: its first 128 terms are the
    node's own part, its last 128 the aggregate's part. -/
theorem dot_apply (x0 : (⟨S10000x128, .f32⟩ : BufTy).Contents (Elt Ideal)) (x1 : (⟨S10000x10000, .f32⟩ : BufTy).Contents (Elt Ideal))
    (x2 : (⟨S128x256, .f32⟩ : BufTy).Contents (Elt Ideal)) (r : Fin 10000) (j : Fin 128) :
    val_main_v3 (F := Ideal) x0 x1 x2 (ix2 r j) = Cert.Sage.selfPart x0 x2 r j + Cert.Sage.aggPart x0 x1 x2 r j := by
  rw [val_main_v3_apply, Cert.Sage.sum_split]
  unfold Cert.Sage.selfPart Cert.Sage.aggPart
  congr 1
  · refine Finset.sum_congr rfl fun k _ => ?_
    rw [cat_left, wt_apply]
  · refine Finset.sum_congr rfl fun k _ => ?_
    rw [cat_right, agg_apply, wt_apply]

/-- The reference's last stage is the layer. (Its arguments come in the order x, adj, W, b.) -/
theorem ref_is_layer (x0 : (⟨S10000x128, .f32⟩ : BufTy).Contents (Elt Ideal)) (x1 : (⟨S10000x10000, .f32⟩ : BufTy).Contents (Elt Ideal))
    (x2 : (⟨S128x256, .f32⟩ : BufTy).Contents (Elt Ideal)) (x3 : (⟨S128, .f32⟩ : BufTy).Contents (Elt Ideal)) :
    val_main_v7 (F := Ideal) x0 x1 x2 x3 = Cert.Sage.layer x0 x1 x2 x3 := by
  funext i
  obtain ⟨r, j, rfl⟩ : ∃ (r : Fin 10000) (j : Fin 128), i = ix2 r j := ⟨i 0, i 1, eq_ix2 i⟩
  rw [Cert.Sage.layer_ix2, val_main_v7_apply, val_main_v6_apply, val_main_call0_v0_apply, val_main_call0_cst_apply,
    dot_apply, bias_apply]
  rfl

end Cert.ReferenceIdeal.RefValue

end
-- ==== Proof.lean ====
/-
  A GraphSAGE layer, out = relu(concat(x, adj · x) · Wᵀ + b) over 10000 nodes with 128 features in and out, computed by a
  kernel that never forms the concatenation: with Wᵀ split into the rows W₁ that meet x and the rows W₂ that meet the
  aggregate adj · x, it computes relu(x · W₁ + (adj · x) · W₂ + b) for 400 nodes at a time, 25 times. On the extended
  reals the two are the same array, entry by entry: the reference's sum over the 256 columns of the concatenation is the
  sum over its first 128 columns, which are x's, plus the sum over its last 128, which are the aggregate's, and the
  kernel adds exactly those two sums, then the bias, then clamps at zero, as the reference does. Splitting a finite sum
  in two needs only that addition is commutative and associative, which holds with the infinities present; no product
  is distributed over a sum and nothing is cancelled, so the inputs' finiteness is not used.

  The kernel hands x to its region twice (the current 400 rows, and the whole array for the aggregate). Both windows
  only read, so the region holds x's buffer as two half shares, one per window; every other array is held whole. With
  that, each program runs to the end from any memory, faults nowhere and leaves its four arguments as they were: the
  frames. The idealization rewrote no operation, so there is nothing for it to preserve beyond that.
-/
import proofs.«152158_g21294447853583_cont_8to1_526_2_alg».proof.Defs
import proofs.«152158_g21294447853583_cont_8to1_526_2_alg».proof.Proof.Gen.Kernel
import proofs.«152158_g21294447853583_cont_8to1_526_2_alg».proof.Proof.Gen.KernelIdeal
import proofs.«152158_g21294447853583_cont_8to1_526_2_alg».proof.Proof.Gen.ReferenceIdeal
import proofs.«152158_g21294447853583_cont_8to1_526_2_alg».proof.Proof.Gen.ReferenceIdeal.Run
import proofs.«152158_g21294447853583_cont_8to1_526_2_alg».proof.Proof.Gen.ReferenceIdeal.Read
import proofs.«152158_g21294447853583_cont_8to1_526_2_alg».proof.Proof.Gen.Pre_finite_inputs
import proofs.«152158_g21294447853583_cont_8to1_526_2_alg».proof.Proof.BitsLaunch
import proofs.«152158_g21294447853583_cont_8to1_526_2_alg».proof.Proof.IdealLaunch
import proofs.«152158_g21294447853583_cont_8to1_526_2_alg».proof.Proof.IdealValue
import proofs.«152158_g21294447853583_cont_8to1_526_2_alg».proof.Proof.SageRef
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Region.frame m ρ

/-- So does the kernel read on the extended reals. -/
theorem frame_kernel_ideal : Cert.frame_KernelIdeal := fun m ρ _ => Cert.KernelIdeal.Region.frame m ρ

/-- The reference is ten host operations in a line: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories that agree on the four arguments, the kernel's result array and the
    reference's are both the layer of those arguments. -/
theorem algebraic : Cert.algebraic_KernelIdeal_ReferenceIdeal := by
  intro m ρ m' ρ' _ hagree
  refine ⟨fun c => Cert.KernelIdeal.Region.result m c, ?_, ?_⟩
  · refine (θ_run Cert.KernelIdeal.defs _ _).mono (fun _ h c => ?_) (Cert.KernelIdeal.Region.run (F := Ideal) m ρ)
    exact ⟨((h c).1 6).trans (Cert.KernelIdeal.Region.final_out m c),
      ((h c).1 1).trans (((Cert.KernelIdeal.Region.data m 0 c).arrAt_in 1 rfl _).trans
        ((Cert.KernelIdeal.Region.data_A m c 1).trans (Cert.KernelIdeal.Region.entry_arg0 m c))),
      ((h c).1 0).trans (((Cert.KernelIdeal.Region.data m 0 c).arrAt_in 0 rfl _).trans
        ((Cert.KernelIdeal.Region.data_A m c 0).trans (Cert.KernelIdeal.Region.entry_arg1 m c))),
      ((h c).2 Cert.KernelIdeal.main_arg2 (Pipeline.mem_restRefs_of Cert.KernelIdeal.main_arg2 rfl (by decide))).trans
        (Cert.KernelIdeal.Region.entry_arg2 m c),
      ((h c).2 Cert.KernelIdeal.main_arg3 (Pipeline.mem_restRefs_of Cert.KernelIdeal.main_arg3 rfl (by decide))).trans
        (Cert.KernelIdeal.Region.entry_arg3 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.ref_is_layer,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
